-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768x512 : Shape := ⟨2, ![32768, 512]⟩
abbrev S512x512 : Shape := ⟨2, ![512, 512]⟩
abbrev S512 : Shape := ⟨1, ![512]⟩
abbrev S1024x512 : Shape := ⟨2, ![1024, 512]⟩
abbrev S1024x4096 : Shape := ⟨2, ![1024, 4096]⟩
abbrev S4096 : Shape := ⟨1, ![4096]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S1024x512 .f32) (main_arg5 : FVec F S512 .f32) (main_arg6 : FVec F S1024x4096 .f32) (main_arg7 : FVec F S4096 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_v33

def fn {F : FTy → Type} [FloatOps F] (main_arg0 : FVec F S32768x1024 .f32) (main_arg1 : FVec F S32768x512 .f32) (main_arg2 : FVec F S512x512 .f32) (main_arg3 : FVec F S512 .f32) (main_arg4 : FVec F S1024x512 .f32) (main_arg5 : FVec F S512 .f32) (main_arg6 : FVec F S1024x4096 .f32) (main_arg7 : FVec F S4096 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S32768x1024 : Shape := ⟨2, ![32768, 1024]⟩
abbrev S32768x512 : Shape := ⟨2, ![32768, 512]⟩
abbrev S512x512 : Shape := ⟨2, ![512, 512]⟩
abbrev S512 : Shape := ⟨1, ![512]⟩
abbrev S1024x512 : Shape := ⟨2, ![1024, 512]⟩
abbrev S1024x4096 : Shape := ⟨2, ![1024, 4096]⟩
abbrev S4096 : Shape := ⟨1, ![4096]⟩
abbrev S256x1024 : Shape := ⟨2, ![256, 1024]⟩
abbrev S256x512 : Shape := ⟨2, ![256, 512]⟩
abbrev S1x512 : Shape := ⟨2, ![1, 512]⟩
abbrev S256x4096 : Shape := ⟨2, ![256, 4096]⟩
abbrev S1x4096 : Shape := ⟨2, ![1, 4096]⟩
abbrev S256x128 : Shape := ⟨2, ![256, 128]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S1024x4096, .f32⟩
  | .hbm, ⟨7, _⟩ => ⟨S4096, .f32⟩
  | .hbm, ⟨8, _⟩ => ⟨S512x512, .bf16⟩
  | .hbm, ⟨9, _⟩ => ⟨S1024x512, .bf16⟩
  | .hbm, ⟨10, _⟩ => ⟨S1024x4096, .bf16⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S512x512, .bf16⟩
  | .local _ .vmem, ⟨5, _⟩ => ⟨S512, .f32⟩
  | .local _ .vmem, ⟨6, _⟩ => ⟨S1024x512, .bf16⟩
  | .local _ .vmem, ⟨7, _⟩ => ⟨S512, .f32⟩
  | .local _ .vmem, ⟨8, _⟩ => ⟨S1024x4096, .bf16⟩
  | .local _ .vmem, ⟨9, _⟩ => ⟨S4096, .f32⟩
  | .local _ .vmem, ⟨10, _⟩ => ⟨S256x1024, .f32⟩
  | .local _ .vmem, ⟨11, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512_S512_0 : ∀ a, (![0] : Fin 1 → Nat) a + S512.size a ≤ S512.size a
  h_S512 : 0 < S512.numel
  inb_S4096_S4096_0 : ∀ a, (![0] : Fin 1 → Nat) a + S4096.size a ≤ S4096.size a
  h_S4096 : 0 < S4096.numel
  shapeCasts_S512_S1x512 : S512.ShapeCasts S1x512
  broadcasts_S1x512_S256x512 : S1x512.Broadcasts S256x512
  shapeCasts_S4096_S1x4096 : S4096.ShapeCasts S1x4096
  broadcasts_S1x4096_S256x4096 : S1x4096.Broadcasts S256x4096
  slices_S256x512_o0_0_S256x128 : S256x512.Slices ![0, 0] S256x128
  slices_S256x4096_o0_0_S256x1024 : S256x4096.Slices ![0, 0] S256x1024
  reduces_S256x128_S256 : S256x128.Reduces [1] S256
  shapeCasts_S256_S256x1 : S256.ShapeCasts S256x1
  broadcasts_S256x1_S256x1024 : S256x1.Broadcasts S256x1024
  slices_S256x512_o0_128_S256x128 : S256x512.Slices ![0, 128] S256x128
  slices_S256x4096_o0_1024_S256x1024 : S256x4096.Slices ![0, 1024] S256x1024
  slices_S256x512_o0_256_S256x128 : S256x512.Slices ![0, 256] S256x128
  slices_S256x4096_o0_2048_S256x1024 : S256x4096.Slices ![0, 2048] S256x1024
  slices_S256x512_o0_384_S256x128 : S256x512.Slices ![0, 384] S256x128
  slices_S256x4096_o0_3072_S256x1024 : S256x4096.Slices ![0, 3072] S256x1024
  dot_S256x512_S512x512_S256x512_1_0_0_1_n_n_wf : DotDims.WF S256x512 S512x512 S256x512 [1] [0] [0] [1] [] []
  dot_S256x1024_S1024x512_S256x512_1_0_0_1_n_n_wf : DotDims.WF S256x1024 S1024x512 S256x512 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S32768x512.size a
  hwx0_1 : ∀ i : grid0.Coords, EltTy.bits .f32 = 32 ∨ (Rect.block (s := S32768x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096.size a ≤ S4096.size a
  hwx0_7 : ∀ i : grid0.Coords, EltTy.bits .f32 = 32 ∨ (Rect.block (s := S4096) S4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S32768x1024.size a
  hwx0_8 : ∀ i : grid0.Coords, EltTy.bits .f32 = 32 ∨ (Rect.block (s := S32768x1024) S256x1024.size (cc0_transform_8 i) (hinb0_8 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32768x512 : Shape := ⟨2, ![32768, 512]⟩
abbrev S512x512 : Shape := ⟨2, ![512, 512]⟩
abbrev S512 : Shape := ⟨1, ![512]⟩
abbrev S1024x512 : Shape := ⟨2, ![1024, 512]⟩
abbrev S1024x4096 : Shape := ⟨2, ![1024, 4096]⟩
abbrev S4096 : Shape := ⟨1, ![4096]⟩
abbrev S1x512 : Shape := ⟨2, ![1, 512]⟩
abbrev S32768x4x128 : Shape := ⟨3, ![32768, 4, 128]⟩
abbrev S32768x4096 : Shape := ⟨2, ![32768, 4096]⟩
abbrev S1x4096 : Shape := ⟨2, ![1, 4096]⟩
abbrev S32768x4x1024 : Shape := ⟨3, ![32768, 4, 1024]⟩
abbrev S_ : Shape := ⟨0, ![]⟩
abbrev S32768x4 : Shape := ⟨2, ![32768, 4]⟩
abbrev S32768x4x1 : Shape := ⟨3, ![32768, 4, 1]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S1024x4096, .f32⟩
  | .hbm, ⟨7, _⟩ => ⟨S4096, .f32⟩
  | .hbm, ⟨8, _⟩ => ⟨S32768x512, .f32⟩
  | .hbm, ⟨9, _⟩ => ⟨S1x512, .f32⟩
  | .hbm, ⟨10, _⟩ => ⟨S32768x512, .f32⟩
  | .hbm, ⟨11, _⟩ => ⟨S32768x512, .f32⟩
  | .hbm, ⟨12, _⟩ => ⟨S32768x4x128, .f32⟩
  | .hbm, ⟨13, _⟩ => ⟨S32768x512, .f32⟩
  | .hbm, ⟨14, _⟩ => ⟨S1x512, .f32⟩
  | .hbm, ⟨15, _⟩ => ⟨S32768x512, .f32⟩
  | .hbm, ⟨16, _⟩ => ⟨S32768x512, .f32⟩
  | .hbm, ⟨17, _⟩ => ⟨S32768x4x128, .f32⟩
  | .hbm, ⟨18, _⟩ => ⟨S32768x4096, .f32⟩
  | .hbm, ⟨19, _⟩ => ⟨S1x4096, .f32⟩
  | .hbm, ⟨20, _⟩ => ⟨S32768x4096, .f32⟩
  | .hbm, ⟨21, _⟩ => ⟨S32768x4096, .f32⟩
  | .hbm, ⟨22, _⟩ => ⟨S32768x4x1024, .f32⟩
  | .hbm, ⟨23, _⟩ => ⟨S32768x4x128, .f32⟩
  | .hbm, ⟨24, _⟩ => ⟨S_, .f32⟩
  | .hbm, ⟨25, _⟩ => ⟨S32768x4, .f32⟩
  | .hbm, ⟨26, _⟩ => ⟨S32768x4x1, .f32⟩
  | .hbm, ⟨27, _⟩ => ⟨S32768x4x1024, .f32⟩
  | .hbm, ⟨28, _⟩ => ⟨S32768x4x1024, .f32⟩
  | .hbm, ⟨29, _⟩ => ⟨S_, .f32⟩
  | .hbm, ⟨30, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  shapeCasts_S32768x512_S32768x4x128 : S32768x512.ShapeCasts S32768x4x128
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  shapeCasts_S32768x4096_S32768x4x1024 : S32768x4096.ShapeCasts S32768x4x1024
  reducesTo_S32768x4x128_S32768x4_d2 : S32768x4x128.ReducesTo [2] S32768x4
  h_S_ : 0 < S_.numel
  bcast_S32768x4_S32768x4x1_0_1 : S32768x4.BroadcastsInDim S32768x4x1 (![0, 1] : Fin 2 → Fin S32768x4x1.rank)
  bcast_S32768x4x1_S32768x4x1024_0_1_2 : S32768x4x1.BroadcastsInDim S32768x4x1024 (![0, 1, 2] : Fin 3 → Fin S32768x4x1024.rank)
  reducesTo_S32768x4x1024_S32768x1024_d1 : S32768x4x1024.ReducesTo [1] S32768x1024
  dot_S32768x512_S512x512_S32768x512_1_0_0_1_n_n_wf : DotDims.WF S32768x512 S512x512 S32768x512 [1] [0] [0] [1] [] []
  dot_S32768x1024_S1024x512_S32768x512_1_0_0_1_n_n_wf : DotDims.WF S32768x1024 S1024x512 S32768x512 [1] [0] [0] [1] [] []
  dot_S32768x1024_S1024x4096_S32768x4096_1_0_0_1_n_n_wf : DotDims.WF S32768x1024 S1024x4096 S32768x4096 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x1024_S1024x4096_S32768x4096_1_0_0_1_n_n : DotDims S32768x1024 S1024x4096 S32768x4096 where
  lhsContracting := [1]
  rhsContracting := [0]
  lhsNonContracting := [0]
  rhsNonContracting := [1]
  lhsBatch := []
  rhsBatch := []
  wf := dot_S32768x1024_S1024x4096_S32768x4096_1_0_0_1_n_n_wf

class Facts : Prop extends Facts₀ where

variable [Facts]
-- ==== Proof.RowSpec.lean ====
/-
  Scores pooled over four heads, for one row.

  A row xo of 512 entries and a row xd of 1024 entries are sent through three dense layers: q = xo·Wq + bq and
  k = xd·Wk + bk, of 512 columns each, and v = xd·Wv + bv, of 4096 columns.  The 512 columns are four heads of 128,
  the 4096 columns four heads of 1024.  Head h scales its 1024 values by its score, the sum over its 128 columns of
  q·k (no softmax); entry j of the result is the largest of the four heads' scaled values at j.  Every entry of the
  [N, 1024] result depends on row n of the two inputs only, so the whole array is this row function applied row by row.

  Last, the maximum over a four-element index set folded from the bottom element is the nested maximum of the four.
-/
import Idealize.ShloMosaic.Lib.ValueIdx
import Mathlib.Order.Lattice
import Mathlib.Data.Finset.Fold
import Mathlib.Data.Fintype.Basic

noncomputable section

open scoped BigOperators

namespace Cert.PooledHeads

open Idealize.ShloMosaic Idealize.ShloMosaic.ValueIdx

/-- Column c of a dense layer applied to one row x: the row against column c of w, plus the bias of column c. -/
def dense {K C : Nat} (x : Fin K → EReal) (w : (⟨2, ![K, C]⟩ : Shape).Idx → EReal) (b : (⟨1, ![C]⟩ : Shape).Idx → EReal)
    (c : Fin C) : EReal :=
  (∑ k : Fin K, x k * w (ix2 k c)) + b (ix1 c)

/-- One head: its score (the 128 columns of q and k from column o on, multiplied and summed) times its value at j
    (column p + j of v). -/
def head (q k : Fin 512 → EReal) (v : Fin 4096 → EReal) (o p : Nat) (ho : o + 128 ≤ 512) (hp : p + 1024 ≤ 4096)
    (j : Fin 1024) : EReal :=
  (∑ d : Fin 128, q ⟨o + d.val, by have := d.isLt; omega⟩ * k ⟨o + d.val, by have := d.isLt; omega⟩)
    * v ⟨p + j.val, by have := j.isLt; omega⟩

/-- The largest of the four heads at j, taken pairwise from the first head on. -/
def pooled (q k : Fin 512 → EReal) (v : Fin 4096 → EReal) (j : Fin 1024) : EReal :=
  max (max (max (head q k v 0 0 (by omega) (by omega) j) (head q k v 128 1024 (by omega) (by omega) j))
    (head q k v 256 2048 (by omega) (by omega) j)) (head q k v 384 3072 (by omega) (by omega) j)

/-- Entry j of the result for one row. -/
def rowOut (xd : Fin 1024 → EReal) (xo : Fin 512 → EReal)
    (wq : (⟨2, ![512, 512]⟩ : Shape).Idx → EReal) (bq : (⟨1, ![512]⟩ : Shape).Idx → EReal)
    (wk : (⟨2, ![1024, 512]⟩ : Shape).Idx → EReal) (bk : (⟨1, ![512]⟩ : Shape).Idx → EReal)
    (wv : (⟨2, ![1024, 4096]⟩ : Shape).Idx → EReal) (bv : (⟨1, ![4096]⟩ : Shape).Idx → EReal) (j : Fin 1024) : EReal :=
  pooled (dense xo wq bq) (dense xd wk bk) (dense xd wv bv) j

/-- The whole [N, 1024] result: entry (n, j) is the row function of row n of the two inputs. -/
def pooledRows {N : Nat} (xd : (⟨2, ![N, 1024]⟩ : Shape).Idx → EReal) (xo : (⟨2, ![N, 512]⟩ : Shape).Idx → EReal)
    (wq : (⟨2, ![512, 512]⟩ : Shape).Idx → EReal) (bq : (⟨1, ![512]⟩ : Shape).Idx → EReal)
    (wk : (⟨2, ![1024, 512]⟩ : Shape).Idx → EReal) (bk : (⟨1, ![512]⟩ : Shape).Idx → EReal)
    (wv : (⟨2, ![1024, 4096]⟩ : Shape).Idx → EReal) (bv : (⟨1, ![4096]⟩ : Shape).Idx → EReal) :
    (⟨2, ![N, 1024]⟩ : Shape).Idx → EReal :=
  fun i => rowOut (fun k => xd (ix2 (i 0 : Fin N) k)) (fun k => xo (ix2 (i 0 : Fin N) k)) wq bq wk bk wv bv (i 1 : Fin 1024)

theorem pooledRows_apply {N : Nat} (xd : (⟨2, ![N, 1024]⟩ : Shape).Idx → EReal) (xo : (⟨2, ![N, 512]⟩ : Shape).Idx → EReal)
    (wq : (⟨2, ![512, 512]⟩ : Shape).Idx → EReal) (bq : (⟨1, ![512]⟩ : Shape).Idx → EReal)
    (wk : (⟨2, ![1024, 512]⟩ : Shape).Idx → EReal) (bk : (⟨1, ![512]⟩ : Shape).Idx → EReal)
    (wv : (⟨2, ![1024, 4096]⟩ : Shape).Idx → EReal) (bv : (⟨1, ![4096]⟩ : Shape).Idx → EReal) (n : Fin N) (j : Fin 1024) :
    pooledRows xd xo wq bq wk bk wv bv (ix2 n j)
      = rowOut (fun k => xd (ix2 n k)) (fun k => xo (ix2 n k)) wq bq wk bk wv bv j := rfl

/-- A maximum folded over four indices from the bottom element is the nested maximum of the four values. -/
theorem fold_max_bot_four {α : Type} [LinearOrder α] [OrderBot α] (g : Fin 4 → α) :
    (Finset.univ : Finset (Fin 4)).fold max ⊥ g = max (max (max (g 0) (g 1)) (g 2)) (g 3) := by
  simp only [Fin.univ_succ, Finset.fold_cons, Finset.fold_map, Finset.univ_unique, Finset.fold_singleton]
  show max (g 0) (max (g 1) (max (g 2) (max (g 3) ⊥))) = _
  rw [max_bot_right, max_assoc, max_assoc]

end Cert.PooledHeads

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.KernelBlock.lean ====
/-
  What one grid point leaves in its output block, entry by entry.

  At a grid point the body holds a block of 256 rows of the two inputs and the whole of the three weight matrices and
  biases.  The three projections are products into a zero accumulator plus the bias laid out as one row and repeated
  down the rows; narrowing an operand to bf16 changes no ideal value.  A head's score is the row sum of the product of
  128 columns of the query and key projections, kept as a column and repeated across the 1024 output columns; the block
  is the pairwise maximum of the four heads' scaled values.  So entry (a, j) of the block is the row function of
  row a of the two input blocks.
-/
import proofs.«132076_j32753420599330_1_alg».proof.Proof.Gen.KernelIdeal.Value
import proofs.«132076_j32753420599330_1_alg».proof.Proof.RowSpec
import proofs.«132076_j32753420599330_1_alg».proof.Proof.LibMatmul
import proofs.«132076_j32753420599330_1_alg».proof.Proof.LibLayout
import proofs.«132076_j32753420599330_1_alg».proof.Proof.LibAxisSum
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.PooledHeads

/-- The query projection of a block at (a, c): row a of the block through the dense layer, column c. -/
theorem query_apply (x : Vec Ideal S256x512 .f32) (w : Vec Ideal S512x512 .bf16) (b : Vec Ideal S512 .f32)
    (a : Fin 256) (c : Fin 512) :
    k0_pay3 x w b (ix2 a c) = dense (fun k => x (ix2 a k)) w b c := by
  unfold k0_pay3
  rw [addf_apply]
  show FloatOps.matmul (DotDims.plain 256 512 512) none _ _ (constant ⟨2, ![256, 512]⟩ .f32 0x00000000#32) (ix2 a c) + _ = _
  rw [Cert.Lib.Matmul.matmul_zero_apply, Cert.Lib.Layout.bcastRow_apply]
  simp only [truncf_apply, shapeCast_self]
  rfl

/-- The key projection of a block at (a, c). -/
theorem key_apply (x : Vec Ideal S256x1024 .f32) (w : Vec Ideal S1024x512 .bf16) (b : Vec Ideal S512 .f32)
    (a : Fin 256) (c : Fin 512) :
    k0_pay4 x w b (ix2 a c) = dense (fun k => x (ix2 a k)) w b c := by
  unfold k0_pay4 k0_pay2
  dsimp only
  rw [addf_apply]
  show FloatOps.matmul (DotDims.plain 256 1024 512) none _ _ (constant ⟨2, ![256, 512]⟩ .f32 0x00000000#32) (ix2 a c) + _ = _
  rw [Cert.Lib.Matmul.matmul_zero_apply, Cert.Lib.Layout.bcastRow_apply]
  simp only [truncf_apply, shapeCast_self]
  rfl

/-- The value projection of a block at (a, c). -/
theorem value_apply (x : Vec Ideal S256x1024 .f32) (w : Vec Ideal S1024x4096 .bf16) (b : Vec Ideal S4096 .f32)
    (a : Fin 256) (c : Fin 4096) :
    k0_pay5 x w b (ix2 a c) = dense (fun k => x (ix2 a k)) w b c := by
  unfold k0_pay5 k0_pay2
  dsimp only
  rw [addf_apply]
  show FloatOps.matmul (DotDims.plain 256 1024 4096) none _ _ (constant ⟨2, ![256, 4096]⟩ .f32 0x00000000#32) (ix2 a c) + _ = _
  rw [Cert.Lib.Matmul.matmul_zero_apply, Cert.Lib.Layout.bcastRow_apply]
  simp only [truncf_apply, shapeCast_self]
  rfl

/-- A head's score for row a: the 128 columns from column o on of the two projections, multiplied and summed. -/
theorem score_apply (Q K : FVec Ideal S256x512 .f32) (o : Nat) (ho : o + 128 ≤ 512)
    (hs : S256x512.Slices ![0, o] S256x128) (a : Fin 256) :
    multiReduction .add [1] S256 (mulf (extractStridedSlice S256x128 ![0, o] Q hs) (extractStridedSlice S256x128 ![0, o] K hs))
        0x00000000#32 reduces_S256x128_S256 (.inl rfl) rfl (ix1 a)
      = ∑ d : Fin 128, Q (ix2 a (⟨o + d.val, by have := d.isLt; omega⟩ : Fin 512))
          * K (ix2 a (⟨o + d.val, by have := d.isLt; omega⟩ : Fin 512)) := by
  refine (Cert.Lib.AxisSum.rowSum_apply _ 0x00000000#32 reduces_S256x128_S256 (.inl rfl) rfl a).trans ?_
  refine Finset.sum_congr rfl fun d _ => ?_
  rw [mulf_apply]
  have hidx : ∀ x : Fin S256x512.rank,
      ((ix2 a (⟨o + d.val, by have := d.isLt; omega⟩ : Fin 512) : S256x512.Idx) x).val
        = (![0, o] : Fin 2 → Nat) x + ((ix2 a d : S256x128.Idx) (x.cast hs.1.symm)).val := fun x =>
    match x with
    | ⟨0, _⟩ => by show a.val = 0 + a.val; omega
    | ⟨1, _⟩ => by show o + d.val = o + d.val; rfl
  rw [extractStridedSlice_apply ![0, o] Q hs (ix2 a d) _ hidx, extractStridedSlice_apply ![0, o] K hs (ix2 a d) _ hidx]

/-- One head at (a, j): its score for row a times its value at column p + j. -/
theorem head_apply (Q K : FVec Ideal S256x512 .f32) (V : FVec Ideal S256x4096 .f32) (o p : Nat) (ho : o + 128 ≤ 512)
    (hp : p + 1024 ≤ 4096) (hs : S256x512.Slices ![0, o] S256x128) (a : Fin 256) (j : Fin 1024) :
    FloatOps.mulf (F := Ideal)
        (multiReduction .add [1] S256 (mulf (extractStridedSlice S256x128 ![0, o] Q hs) (extractStridedSlice S256x128 ![0, o] K hs))
          0x00000000#32 reduces_S256x128_S256 (.inl rfl) rfl (ix1 a))
        (V (ix2 a (⟨p + j.val, by have := j.isLt; omega⟩ : Fin 4096)))
      = head (fun c => Q (ix2 a c)) (fun c => K (ix2 a c)) (fun c => V (ix2 a c)) o p ho hp j := by
  rw [score_apply Q K o ho hs a]
  rfl

/-- Entry (a, j) of the block a grid point leaves is the row function of row a of the two input blocks. -/
theorem block_apply (xo : Vec Ideal S256x512 .f32) (wq : Vec Ideal S512x512 .bf16) (bq : Vec Ideal S512 .f32)
    (xd : Vec Ideal S256x1024 .f32) (wk : Vec Ideal S1024x512 .bf16) (bk : Vec Ideal S512 .f32)
    (wv : Vec Ideal S1024x4096 .bf16) (bv : Vec Ideal S4096 .f32) (a : Fin 256) (j : Fin 1024) :
    Value.E8 (F := Ideal) xo wq bq xd wk bk wv bv (ix2 a j)
      = rowOut (fun k => xd (ix2 a k)) (fun k => xo (ix2 a k)) wq bq wk bk wv bv j := by
  have r0 : Value.ix8_0 (ix2 a j : S256x1024.Idx) = ix1 a := funext fun d => match d with | ⟨0, _⟩ => rfl
  have r2 : Value.ix8_2 (ix2 a j : S256x1024.Idx) = ix1 a := funext fun d => match d with | ⟨0, _⟩ => rfl
  have r4 : Value.ix8_4 (ix2 a j : S256x1024.Idx) = ix1 a := funext fun d => match d with | ⟨0, _⟩ => rfl
  have r6 : Value.ix8_6 (ix2 a j : S256x1024.Idx) = ix1 a := funext fun d => match d with | ⟨0, _⟩ => rfl
  have r1 : Value.ix8_1 (ix2 a j : S256x1024.Idx) = ix2 a (⟨0 + j.val, by have := j.isLt; omega⟩ : Fin 4096) :=
    funext fun d => match d with
      | ⟨0, _⟩ => rfl
      | ⟨1, _⟩ => Fin.ext (by show j.val = 0 + j.val; omega)
  have r3 : Value.ix8_3 (ix2 a j : S256x1024.Idx) = ix2 a (⟨1024 + j.val, by have := j.isLt; omega⟩ : Fin 4096) :=
    funext fun d => match d with
      | ⟨0, _⟩ => rfl
      | ⟨1, _⟩ => Fin.ext (by show j.val + 1024 = 1024 + j.val; omega)
  have r5 : Value.ix8_5 (ix2 a j : S256x1024.Idx) = ix2 a (⟨2048 + j.val, by have := j.isLt; omega⟩ : Fin 4096) :=
    funext fun d => match d with
      | ⟨0, _⟩ => rfl
      | ⟨1, _⟩ => Fin.ext (by show j.val + 2048 = 2048 + j.val; omega)
  have r7 : Value.ix8_7 (ix2 a j : S256x1024.Idx) = ix2 a (⟨3072 + j.val, by have := j.isLt; omega⟩ : Fin 4096) :=
    funext fun d => match d with
      | ⟨0, _⟩ => rfl
      | ⟨1, _⟩ => Fin.ext (by show j.val + 3072 = 3072 + j.val; omega)
  show FloatOps.maximumf (F := Ideal) (FloatOps.maximumf (FloatOps.maximumf (FloatOps.mulf _ _) (FloatOps.mulf _ _)) (FloatOps.mulf _ _)) (FloatOps.mulf _ _) = _
  rw [r0, r1, r2, r3, r4, r5, r6, r7]
  rw [head_apply _ _ _ 0 0 (by omega) (by omega), head_apply _ _ _ 128 1024 (by omega) (by omega),
    head_apply _ _ _ 256 2048 (by omega) (by omega), head_apply _ _ _ 384 3072 (by omega) (by omega)]
  have hq : (fun c => k0_pay3 xo wq bq (ix2 a c)) = dense (fun k => xo (ix2 a k)) wq bq := funext fun c => query_apply xo wq bq a c
  have hk : (fun c => k0_pay4 xd wk bk (ix2 a c)) = dense (fun k => xd (ix2 a k)) wk bk := funext fun c => key_apply xd wk bk a c
  have hv : (fun c => k0_pay5 xd wv bv (ix2 a c)) = dense (fun k => xd (ix2 a k)) wv bv := funext fun c => value_apply xd wv bv a c
  rw [hq, hk, hv]
  rfl

end Cert.KernelIdeal.Block

end
-- ==== Proof.KernelArray.lean ====
/-
  From blocks to the whole array.

  Grid point t works on rows 256 t .. 256 t + 255 of the two inputs and of the output, and holds the three weight
  matrices (narrowed to bf16 before the call, which changes no ideal value) and the three biases whole.  The block it
  writes back is, entry by entry, the row function of its rows; the 128 blocks tile the [32768, 1024] output; so the
  output ends as the row function applied row by row to the two inputs.
-/
import proofs.«132076_j32753420599330_1_alg».proof.Proof.Gen.KernelIdeal.Value
import proofs.«132076_j32753420599330_1_alg».proof.Proof.KernelBlock
import proofs.«132076_j32753420599330_1_alg».proof.Proof.RowSpec
import Idealize.ShloMosaic.Lib.Pipeline.Value
import Idealize.ShloMosaic.Lib.ValueIdx
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.PooledHeads
open Idealize.ShloMosaic.Pipeline (Dat)

variable (m : (ℓ : Loc nD τ sig) → Buf (Elt Ideal) ℓ) (ρ : Dev nD → PrngReg)

/-- The result: the row function applied row by row to the two inputs as launched. -/
abbrev result (c : Dev nD) : S32768x1024.Idx → EReal :=
  pooledRows (m ((c : Thread nD τ).loc main_arg0) : S32768x1024.Idx → EReal) (m ((c : Thread nD τ).loc main_arg1) : S32768x512.Idx → EReal)
    (m ((c : Thread nD τ).loc main_arg2) : S512x512.Idx → EReal) (m ((c : Thread nD τ).loc main_arg3) : S512.Idx → EReal)
    (m ((c : Thread nD τ).loc main_arg4) : S1024x512.Idx → EReal) (m ((c : Thread nD τ).loc main_arg5) : S512.Idx → EReal)
    (m ((c : Thread nD τ).loc main_arg6) : S1024x4096.Idx → EReal) (m ((c : Thread nD τ).loc main_arg7) : S4096.Idx → EReal)

/-! ## Each window's block at a point, by its literal type -/

abbrev xdBlk (c : Dev nD) (t : Fin cfg0.N) : Vec Ideal S256x1024 .f32 := iblk m c 0 t
abbrev xoBlk (c : Dev nD) (t : Fin cfg0.N) : Vec Ideal S256x512 .f32 := iblk m c 1 t
abbrev wqBlk (c : Dev nD) (t : Fin cfg0.N) : Vec Ideal S512x512 .bf16 := iblk m c 2 t
abbrev bqBlk (c : Dev nD) (t : Fin cfg0.N) : Vec Ideal S512 .f32 := iblk m c 3 t
abbrev wkBlk (c : Dev nD) (t : Fin cfg0.N) : Vec Ideal S1024x512 .bf16 := iblk m c 4 t
abbrev bkBlk (c : Dev nD) (t : Fin cfg0.N) : Vec Ideal S512 .f32 := iblk m c 5 t
abbrev wvBlk (c : Dev nD) (t : Fin cfg0.N) : Vec Ideal S1024x4096 .bf16 := iblk m c 6 t
abbrev bvBlk (c : Dev nD) (t : Fin cfg0.N) : Vec Ideal S4096 .f32 := iblk m c 7 t

/-- The printed index maps, decided over the 128 points: the two inputs and the output move down one block of rows per
    point, the weights and biases stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- Row a of point t's block is row 256 t + a of the array. -/
def rowOf (t : Fin cfg0.N) (a : Fin 256) : Fin 32768 :=
  ⟨256 * t.val + a.val, by have := t.isLt; have := a.isLt; have hN : cfg0.N = 128 := N_0; omega⟩

/-- The narrowed query weights the region finds are, as ideal values, the query weights as launched. -/
theorem wq_entry (c : Dev nD) : (V m c main_v0 : S512x512.Idx → EReal) = (m ((c : Thread nD τ).loc main_arg2) : S512x512.Idx → EReal) := by
  have e : (V m c main_v0 : S512x512.Idx → EReal)
      = (truncf .bf16 (m ((c : Thread nD τ).loc main_arg2) : FVec Ideal S512x512 .f32) bitsLt_bf16_f32 : FVec Ideal S512x512 .bf16) := by
    dsimp only [V, hostOps0]
    after_results
  rw [e]
  rfl

/-- The same for the key weights. -/
theorem wk_entry (c : Dev nD) : (V m c main_v1 : S1024x512.Idx → EReal) = (m ((c : Thread nD τ).loc main_arg4) : S1024x512.Idx → EReal) := by
  have e : (V m c main_v1 : S1024x512.Idx → EReal)
      = (truncf .bf16 (m ((c : Thread nD τ).loc main_arg4) : FVec Ideal S1024x512 .f32) bitsLt_bf16_f32 : FVec Ideal S1024x512 .bf16) := by
    dsimp only [V, hostOps0]
    after_results
  rw [e]
  rfl

/-- The same for the value weights. -/
theorem wv_entry (c : Dev nD) : (V m c main_v2 : S1024x4096.Idx → EReal) = (m ((c : Thread nD τ).loc main_arg6) : S1024x4096.Idx → EReal) := by
  have e : (V m c main_v2 : S1024x4096.Idx → EReal)
      = (truncf .bf16 (m ((c : Thread nD τ).loc main_arg6) : FVec Ideal S1024x4096 .f32) bitsLt_bf16_f32 : FVec Ideal S1024x4096 .bf16) := by
    dsimp only [V, hostOps0]
    after_results
  rw [e]
  rfl

/-! ## The blocks read off the arrays -/

/-- Row a of the first input's block at point t is row 256 t + a of the first input. -/
theorem xdBlk_apply (c : Dev nD) (t : Fin cfg0.N) (a : Fin 256) (k : Fin 1024) :
    xdBlk m c t (ix2 a k) = (m ((c : Thread nD τ).loc main_arg0) : S32768x1024.Idx → EReal) (ix2 (rowOf t a) k) := by
  obtain ⟨e0, e1, -⟩ := idx_facts t
  show iblk m c 0 t (ix2 a k) = _
  unfold iblk
  rw [View.read_apply]
  show V m c main_arg0 _ = _
  rw [V_main_arg0]
  refine congrArg (m ((c : Thread nD τ).loc main_arg0) : S32768x1024.Idx → EReal) ?_
  funext x
  apply Fin.ext
  match x with
  | ⟨0, _⟩ => show win0_0.index t (0 : Fin 2) * 256 + 1 * a.val = 256 * t.val + a.val; rw [e0]; omega
  | ⟨1, _⟩ => show win0_0.index t (1 : Fin 2) * 1024 + 1 * k.val = k.val; rw [e1]; omega

/-- Row a of the second input's block at point t is row 256 t + a of the second input. -/
theorem xoBlk_apply (c : Dev nD) (t : Fin cfg0.N) (a : Fin 256) (k : Fin 512) :
    xoBlk m c t (ix2 a k) = (m ((c : Thread nD τ).loc main_arg1) : S32768x512.Idx → EReal) (ix2 (rowOf t a) k) := by
  obtain ⟨-, -, e0, e1, -⟩ := idx_facts t
  show iblk m c 1 t (ix2 a k) = _
  unfold iblk
  rw [View.read_apply]
  show V m c main_arg1 _ = _
  rw [V_main_arg1]
  refine congrArg (m ((c : Thread nD τ).loc main_arg1) : S32768x512.Idx → EReal) ?_
  funext x
  apply Fin.ext
  match x with
  | ⟨0, _⟩ => show win0_1.index t (0 : Fin 2) * 256 + 1 * a.val = 256 * t.val + a.val; rw [e0]; omega
  | ⟨1, _⟩ => show win0_1.index t (1 : Fin 2) * 512 + 1 * k.val = k.val; rw [e1]; omega

/-- The query weights' block at any point is the query weights as launched. -/
theorem wqBlk_eq (c : Dev nD) (t : Fin cfg0.N) :
    (wqBlk m c t : S512x512.Idx → EReal) = (m ((c : Thread nD τ).loc main_arg2) : S512x512.Idx → EReal) := by
  obtain ⟨-, -, -, -, e0, e1, -⟩ := idx_facts t
  funext y
  show iblk m c 2 t y = _
  unfold iblk
  rw [View.read_apply]
  show (V m c main_v0 : S512x512.Idx → EReal) _ = _
  rw [wq_entry]
  refine congrArg (m ((c : Thread nD τ).loc main_arg2) : S512x512.Idx → EReal) ?_
  funext x
  apply Fin.ext
  match x with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

/-- The query bias's block at any point is the query bias as launched. -/
theorem bqBlk_eq (c : Dev nD) (t : Fin cfg0.N) :
    (bqBlk m c t : S512.Idx → EReal) = (m ((c : Thread nD τ).loc main_arg3) : S512.Idx → EReal) := by
  obtain ⟨-, -, -, -, -, -, e0, -⟩ := idx_facts t
  funext y
  show iblk m c 3 t y = _
  unfold iblk
  rw [View.read_apply]
  show V m c main_arg3 _ = _
  rw [V_main_arg3]
  refine congrArg (m ((c : Thread nD τ).loc main_arg3) : S512.Idx → EReal) ?_
  funext x
  apply Fin.ext
  match x with
  | ⟨0, _⟩ => show win0_3.index t (0 : Fin 1) * 512 + 1 * (y 0).val = (y 0).val; rw [e0]; omega

/-- The key weights' block at any point is the key weights as launched. -/
theorem wkBlk_eq (c : Dev nD) (t : Fin cfg0.N) :
    (wkBlk m c t : S1024x512.Idx → EReal) = (m ((c : Thread nD τ).loc main_arg4) : S1024x512.Idx → EReal) := by
  obtain ⟨-, -, -, -, -, -, -, e0, e1, -⟩ := idx_facts t
  funext y
  show iblk m c 4 t y = _
  unfold iblk
  rw [View.read_apply]
  show (V m c main_v1 : S1024x512.Idx → EReal) _ = _
  rw [wk_entry]
  refine congrArg (m ((c : Thread nD τ).loc main_arg4) : S1024x512.Idx → EReal) ?_
  funext x
  apply Fin.ext
  match x with
  | ⟨0, _⟩ => show win0_4.index t (0 : Fin 2) * 1024 + 1 * (y 0).val = (y 0).val; rw [e0]; omega
  | ⟨1, _⟩ => show win0_4.index t (1 : Fin 2) * 512 + 1 * (y 1).val = (y 1).val; rw [e1]; omega

/-- The key bias's block at any point is the key bias as launched. -/
theorem bkBlk_eq (c : Dev nD) (t : Fin cfg0.N) :
    (bkBlk m c t : S512.Idx → EReal) = (m ((c : Thread nD τ).loc main_arg5) : S512.Idx → EReal) := by
  obtain ⟨-, -, -, -, -, -, -, -, -, e0, -⟩ := idx_facts t
  funext y
  show iblk m c 5 t y = _
  unfold iblk
  rw [View.read_apply]
  show V m c main_arg5 _ = _
  rw [V_main_arg5]
  refine congrArg (m ((c : Thread nD τ).loc main_arg5) : S512.Idx → EReal) ?_
  funext x
  apply Fin.ext
  match x with
  | ⟨0, _⟩ => show win0_5.index t (0 : Fin 1) * 512 + 1 * (y 0).val = (y 0).val; rw [e0]; omega

/-- The value weights' block at any point is the value weights as launched. -/
theorem wvBlk_eq (c : Dev nD) (t : Fin cfg0.N) :
    (wvBlk m c t : S1024x4096.Idx → EReal) = (m ((c : Thread nD τ).loc main_arg6) : S1024x4096.Idx → EReal) := by
  obtain ⟨-, -, -, -, -, -, -, -, -, -, e0, e1, -⟩ := idx_facts t
  funext y
  show iblk m c 6 t y = _
  unfold iblk
  rw [View.read_apply]
  show (V m c main_v2 : S1024x4096.Idx → EReal) _ = _
  rw [wv_entry]
  refine congrArg (m ((c : Thread nD τ).loc main_arg6) : S1024x4096.Idx → EReal) ?_
  funext x
  apply Fin.ext
  match x with
  | ⟨0, _⟩ => show win0_6.index t (0 : Fin 2) * 1024 + 1 * (y 0).val = (y 0).val; rw [e0]; omega
  | ⟨1, _⟩ => show win0_6.index t (1 : Fin 2) * 4096 + 1 * (y 1).val = (y 1).val; rw [e1]; omega

/-- The value bias's block at any point is the value bias as launched. -/
theorem bvBlk_eq (c : Dev nD) (t : Fin cfg0.N) :
    (bvBlk m c t : S4096.Idx → EReal) = (m ((c : Thread nD τ).loc main_arg7) : S4096.Idx → EReal) := by
  obtain ⟨-, -, -, -, -, -, -, -, -, -, -, -, e0, -⟩ := idx_facts t
  funext y
  show iblk m c 7 t y = _
  unfold iblk
  rw [View.read_apply]
  show V m c main_arg7 _ = _
  rw [V_main_arg7]
  refine congrArg (m ((c : Thread nD τ).loc main_arg7) : S4096.Idx → EReal) ?_
  funext x
  apply Fin.ext
  match x with
  | ⟨0, _⟩ => show win0_7.index t (0 : Fin 1) * 4096 + 1 * (y 0).val = (y 0).val; rw [e0]; omega

/-! ## What a point writes back, the cover, the array -/

theorem hz2 : (![0, 0] : Fin 2 → Nat) = fun _ => 0 := funext fun a => by fin_cases a <;> rfl
theorem hz1 : (![0] : Fin 1 → Nat) = fun _ => 0 := funext fun a => by fin_cases a; rfl

/-- Point t writes back block t of the result. -/
theorem flushed_eq (c : Dev nD) (t : Fin cfg0.N) :
    (dats m 0 c).flushed 8 t = ((cfg0.win 8).blk t).view.read (Elt Ideal) (result m c) := by
  rw [Value.flushed8]
  obtain ⟨-, -, -, -, -, -, -, -, -, -, -, -, -, e0, e1⟩ := idx_facts t
  funext y
  show out0_8 (xdBlk m c t) (xoBlk m c t) (wqBlk m c t) (bqBlk m c t) (wkBlk m c t) (bkBlk m c t) (wvBlk m c t) (bvBlk m c t) y
    = result m c (((cfg0.win 8).blk t).view.emb y)
  unfold out0_8
  simp only [View.ld_unit_zero (S := S256x1024) hz2, View.ld_unit_zero (S := S256x512) hz2, View.ld_unit_zero (S := S512x512) hz2,
    View.ld_unit_zero (S := S1024x512) hz2, View.ld_unit_zero (S := S1024x4096) hz2, View.ld_unit_zero (S := S512) hz1,
    View.ld_unit_zero (S := S4096) hz1]
  refine (Value.canon8_eq (F := Ideal) (xoBlk m c t) (wqBlk m c t) (bqBlk m c t) (xdBlk m c t) (wkBlk m c t) (bkBlk m c t) (wvBlk m c t) (bvBlk m c t) y).trans ?_
  obtain ⟨a, j, rfl⟩ : ∃ (a : Fin 256) (j : Fin 1024), y = ix2 a j := ⟨y 0, y 1, eq_ix2 y⟩
  rw [Cert.KernelIdeal.Block.block_apply]
  have hemb : ((cfg0.win 8).blk t).view.emb (ix2 a j : S256x1024.Idx) = (ix2 (rowOf t a) j : S32768x1024.Idx) := by
    funext x
    apply Fin.ext
    match x with
    | ⟨0, _⟩ => show win0_8.index t (0 : Fin 2) * 256 + 1 * a.val = 256 * t.val + a.val; rw [e0]; omega
    | ⟨1, _⟩ => show win0_8.index t (1 : Fin 2) * 1024 + 1 * j.val = j.val; rw [e1]; omega
  rw [hemb]
  show _ = rowOut (fun k => (m ((c : Thread nD τ).loc main_arg0) : S32768x1024.Idx → EReal) (ix2 (rowOf t a) k))
    (fun k => (m ((c : Thread nD τ).loc main_arg1) : S32768x512.Idx → EReal) (ix2 (rowOf t a) k)) _ _ _ _ _ _ j
  have hxd : (fun k => xdBlk m c t (ix2 a k)) = fun k => (m ((c : Thread nD τ).loc main_arg0) : S32768x1024.Idx → EReal) (ix2 (rowOf t a) k) :=
    funext fun k => xdBlk_apply m c t a k
  have hxo : (fun k => xoBlk m c t (ix2 a k)) = fun k => (m ((c : Thread nD τ).loc main_arg1) : S32768x512.Idx → EReal) (ix2 (rowOf t a) k) :=
    funext fun k => xoBlk_apply m c t a k
  rw [hxd, hxo, wqBlk_eq, bqBlk_eq, wkBlk_eq, bkBlk_eq, wvBlk_eq, bvBlk_eq]

/-- An index of the array is in point t's block iff each coordinate is in the block's range on its axis. -/
theorem mem_blk (t : Fin cfg0.N) (i : S32768x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v3).slice (win0_8.rect t)).set ↔ _
  rw [View.set_slice_whole, Rect.mem_set_unit]
  exact Iff.rfl

/-- Every index of the array is in the block of the point its row falls in. -/
theorem cover (i : S32768x1024.Idx) : ∃ t : Fin cfg0.N, (cfg0.win 8).flush t = true ∧ i ∈ ((cfg0.win 8).blk t).view.set := by
  have hi0 : (i 0).val < 32768 := (i 0).isLt
  have hi1 : (i 1).val < 1024 := (i 1).isLt
  have hN : cfg0.N = 128 := N_0
  let t : Fin cfg0.N := ⟨(i 0).val / 256, by omega⟩
  obtain ⟨-, -, -, -, -, -, -, -, -, -, -, -, -, e0, e1⟩ := idx_facts t
  refine ⟨t, flush0_8 t, ?_⟩
  rw [mem_blk]
  intro a
  match a with
  | ⟨0, _⟩ =>
    show win0_8.index t (0 : Fin 2) * 256 ≤ (i 0).val ∧ (i 0).val < win0_8.index t (0 : Fin 2) * 256 + 256
    rw [e0]
    show (i 0).val / 256 * 256 ≤ (i 0).val ∧ (i 0).val < (i 0).val / 256 * 256 + 256
    omega
  | ⟨1, _⟩ =>
    show win0_8.index t (1 : Fin 2) * 1024 ≤ (i 1).val ∧ (i 1).val < win0_8.index t (1 : Fin 2) * 1024 + 1024
    rw [e1]
    omega

/-- The output array after the run is the result. -/
theorem final (c : Dev nD) : (dats m 0 c).arrAt 8 cfg0.N = result m c :=
  (dats m 0 c).arrAt_eq_of_cover 8 (result m c) (fun t _ => flushed_eq m c t) cover

/-- The run, read: the output array at the result, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefValue.lean ====
/-
  The reference's result, entry by entry.

  The reference projects all 32768 rows at once (a product plus the bias repeated down the rows, three times), views the
  512 columns as 4 heads of 128 and the 4096 columns as 4 heads of 1024, sums query times key over each head's 128
  columns from zero, scales the head's values by that score, and takes the maximum over the four heads from minus
  infinity.  Position (n, h, d) of a [32768, 4, 128] view of an [32768, 512] array is its entry (n, 128 h + d), and
  likewise with 1024 and 4096; a maximum folded from minus infinity over the four heads is the pairwise maximum of the
  four.  So entry (n, j) of the result is the row function of row n of the two inputs.
-/
import proofs.«132076_j32753420599330_1_alg».proof.Proof.Gen.ReferenceIdeal.Read
import proofs.«132076_j32753420599330_1_alg».proof.Proof.RowSpec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Cert.PooledHeads

variable (x0 : (⟨S32768x1024, .f32⟩ : BufTy).Contents (Elt Ideal)) (x1 : (⟨S32768x512, .f32⟩ : BufTy).Contents (Elt Ideal))
  (x2 : (⟨S512x512, .f32⟩ : BufTy).Contents (Elt Ideal)) (x3 : (⟨S512, .f32⟩ : BufTy).Contents (Elt Ideal))
  (x4 : (⟨S1024x512, .f32⟩ : BufTy).Contents (Elt Ideal)) (x5 : (⟨S512, .f32⟩ : BufTy).Contents (Elt Ideal))
  (x6 : (⟨S1024x4096, .f32⟩ : BufTy).Contents (Elt Ideal)) (x7 : (⟨S4096, .f32⟩ : BufTy).Contents (Elt Ideal))

/-- The query projection at (n, c): row n of the second input through the dense layer, column c. -/
theorem query_apply (n : Fin 32768) (c : Fin 512) :
    val_main_v3 (F := Ideal) x1 x2 x3 (ix2 n c) = dense (fun k => x1 (ix2 n k)) x2 x3 c := by
  rw [val_main_v3_apply, val_main_v0_apply, val_main_v2_apply, val_main_v1_apply]
  have hl : ∀ k : Fin 512, lidx_main_v0 (ix2 n c) k = ix2 n k := fun k => funext fun a => match a with | ⟨0, _⟩ => rfl | ⟨1, _⟩ => rfl
  have hr : ∀ k : Fin 512, ridx_main_v0 (ix2 n c) k = ix2 k c := fun k => funext fun a => match a with | ⟨0, _⟩ => rfl | ⟨1, _⟩ => rfl
  have hb : idx_main_v1 (idx_main_v2 (ix2 n c)) = ix1 c := funext fun a => match a with | ⟨0, _⟩ => rfl
  simp only [hl, hr, hb]
  rfl

/-- The key projection at (n, c): row n of the first input through the dense layer, column c. -/
theorem key_apply (n : Fin 32768) (c : Fin 512) :
    val_main_v8 (F := Ideal) x0 x4 x5 (ix2 n c) = dense (fun k => x0 (ix2 n k)) x4 x5 c := by
  rw [val_main_v8_apply, val_main_v5_apply, val_main_v7_apply, val_main_v6_apply]
  have hl : ∀ k : Fin 1024, lidx_main_v5 (ix2 n c) k = ix2 n k := fun k => funext fun a => match a with | ⟨0, _⟩ => rfl | ⟨1, _⟩ => rfl
  have hr : ∀ k : Fin 1024, ridx_main_v5 (ix2 n c) k = ix2 k c := fun k => funext fun a => match a with | ⟨0, _⟩ => rfl | ⟨1, _⟩ => rfl
  have hb : idx_main_v6 (idx_main_v7 (ix2 n c)) = ix1 c := funext fun a => match a with | ⟨0, _⟩ => rfl
  simp only [hl, hr, hb]
  rfl

/-- The value projection at (n, c). -/
theorem value_apply (n : Fin 32768) (c : Fin 4096) :
    val_main_v13 (F := Ideal) x0 x6 x7 (ix2 n c) = dense (fun k => x0 (ix2 n k)) x6 x7 c := by
  rw [val_main_v13_apply, val_main_v10_apply, val_main_v12_apply, val_main_v11_apply]
  have hl : ∀ k : Fin 1024, lidx_main_v10 (ix2 n c) k = ix2 n k := fun k => funext fun a => match a with | ⟨0, _⟩ => rfl | ⟨1, _⟩ => rfl
  have hr : ∀ k : Fin 1024, ridx_main_v10 (ix2 n c) k = ix2 k c := fun k => funext fun a => match a with | ⟨0, _⟩ => rfl | ⟨1, _⟩ => rfl
  have hb : idx_main_v11 (idx_main_v12 (ix2 n c)) = ix1 c := funext fun a => match a with | ⟨0, _⟩ => rfl
  simp only [hl, hr, hb]
  rfl

/-- Position (n, h, d) of the [32768, 4, 128] view is entry (n, 128 h + d) of the [32768, 512] array. -/
theorem headCol (n : Fin 32768) (h : Fin 4) (d : Fin 128) :
    idx_main_v4 (ix3 n h d) = ix2 n (⟨128 * h.val + d.val, by have := h.isLt; have := d.isLt; omega⟩ : Fin 512) :=
  funext fun a => match a with
    | ⟨0, _⟩ => Fin.ext (by
        show ((n.val * 4 + h.val) * 128 + d.val) / 512 = n.val
        have := h.isLt; have := d.isLt; omega)
    | ⟨1, _⟩ => Fin.ext (by
        show ((n.val * 4 + h.val) * 128 + d.val) % 512 = 128 * h.val + d.val
        have := h.isLt; have := d.isLt; omega)

/-- The same for the key projection's view. -/
theorem headCol' (n : Fin 32768) (h : Fin 4) (d : Fin 128) :
    idx_main_v9 (ix3 n h d) = ix2 n (⟨128 * h.val + d.val, by have := h.isLt; have := d.isLt; omega⟩ : Fin 512) :=
  funext fun a => match a with
    | ⟨0, _⟩ => Fin.ext (by
        show ((n.val * 4 + h.val) * 128 + d.val) / 512 = n.val
        have := h.isLt; have := d.isLt; omega)
    | ⟨1, _⟩ => Fin.ext (by
        show ((n.val * 4 + h.val) * 128 + d.val) % 512 = 128 * h.val + d.val
        have := h.isLt; have := d.isLt; omega)

/-- Position (n, h, j) of the [32768, 4, 1024] view is entry (n, 1024 h + j) of the [32768, 4096] array. -/
theorem headOut (n : Fin 32768) (h : Fin 4) (j : Fin 1024) :
    idx_main_v14 (ix3 n h j) = ix2 n (⟨1024 * h.val + j.val, by have := h.isLt; have := j.isLt; omega⟩ : Fin 4096) :=
  funext fun a => match a with
    | ⟨0, _⟩ => Fin.ext (by
        show ((n.val * 4 + h.val) * 1024 + j.val) / 4096 = n.val
        have := h.isLt; have := j.isLt; omega)
    | ⟨1, _⟩ => Fin.ext (by
        show ((n.val * 4 + h.val) * 1024 + j.val) % 4096 = 1024 * h.val + j.val
        have := h.isLt; have := j.isLt; omega)

/-- Head h's score for row n: its 128 columns of the two projections, multiplied and summed from zero. -/
theorem score_apply (n : Fin 32768) (h : Fin 4) :
    val_main_v16 (F := Ideal) x0 x1 x2 x3 x4 x5 (ix2 n h)
      = ∑ d : Fin 128, val_main_v3 (F := Ideal) x1 x2 x3 (ix2 n (⟨128 * h.val + d.val, by have := h.isLt; have := d.isLt; omega⟩ : Fin 512))
          * val_main_v8 (F := Ideal) x0 x4 x5 (ix2 n (⟨128 * h.val + d.val, by have := h.isLt; have := d.isLt; omega⟩ : Fin 512)) := by
  rw [val_main_v16_apply]
  have h0 : val_main_cst (F := Ideal) (Shape.Idx.first h_S_) = 0 := by
    rw [val_main_cst_apply]
    exact Ideal.ofBits_zero_f32
  rw [h0, zero_add]
  refine Finset.sum_congr rfl fun d _ => ?_
  have e : idx_main_v16 (ix2 n h) d = ix3 n h d := funext fun a => match a with | ⟨0, _⟩ => rfl | ⟨1, _⟩ => rfl | ⟨2, _⟩ => rfl
  rw [val_main_v15_apply, val_main_v4_apply, val_main_v9_apply, e, headCol, headCol']
  rfl

/-- Head h at (n, j): its score for row n times its value at column 1024 h + j. -/
theorem head_apply (n : Fin 32768) (h : Fin 4) (j : Fin 1024) :
    val_main_v19 (F := Ideal) x0 x1 x2 x3 x4 x5 x6 x7 (ix3 n h j)
      = head (dense (fun k => x1 (ix2 n k)) x2 x3) (dense (fun k => x0 (ix2 n k)) x4 x5) (dense (fun k => x0 (ix2 n k)) x6 x7)
          (128 * h.val) (1024 * h.val) (by have := h.isLt; omega) (by have := h.isLt; omega) j := by
  have e18 : idx_main_v17 (idx_main_v18 (ix3 n h j)) = ix2 n h := funext fun a => match a with | ⟨0, _⟩ => rfl | ⟨1, _⟩ => rfl
  rw [val_main_v19_apply, val_main_v18_apply, val_main_v17_apply, e18, score_apply, val_main_v14_apply, headOut, value_apply]
  simp only [query_apply, key_apply]
  rfl

/-- The reference's result is the row function applied row by row. -/
theorem result_eq :
    val_main_v20 (F := Ideal) x0 x1 x2 x3 x4 x5 x6 x7 = pooledRows x0 x1 x2 x3 x4 x5 x6 x7 := by
  funext i
  obtain ⟨n, j, rfl⟩ : ∃ (n : Fin 32768) (j : Fin 1024), i = ix2 n j := ⟨i 0, i 1, eq_ix2 i⟩
  have hred : S32768x4x1024.Reduces [1] S32768x1024 := by decide
  unfold val_main_v20
  rw [Host.reduce_eq_fold_single FloatOps.maximumf _ _ reducesTo_S32768x4x1024_S32768x1024_d1 hred h_S_]
  have hbot : val_main_cst_0 (F := Ideal) (Shape.Idx.first h_S_) = (⊥ : EReal) := by
    rw [val_main_cst_0_apply]
    show Ideal.ofBits .f32 0xFF800000#32 = ⊥
    simp [Ideal.ofBits, Ideal.ieee]
  have hlift : ∀ h : Fin 4, hred.lift (ix2 n j) h = ix3 n h j := fun h => funext fun a => Fin.ext (by
    match a with
    | ⟨0, _⟩ => rfl
    | ⟨1, _⟩ => rfl
    | ⟨2, _⟩ => rfl)
  have hg : (val_main_v19 (F := Ideal) x0 x1 x2 x3 x4 x5 x6 x7 ∘ hred.lift (ix2 n j))
      = fun h : Fin 4 => val_main_v19 (F := Ideal) x0 x1 x2 x3 x4 x5 x6 x7 (ix3 n h j) := funext fun h => congrArg (val_main_v19 (F := Ideal) x0 x1 x2 x3 x4 x5 x6 x7) (hlift h)
  rw [hbot, hg]
  refine (fold_max_bot_four (α := EReal) _).trans ?_
  rw [pooledRows_apply, head_apply, head_apply, head_apply, head_apply]
  rfl

end Cert.ReferenceIdeal.RefValue

end
-- ==== Proof.lean ====
/-
  Scores pooled over four heads: a tiled kernel against the array-at-once reference.

  Both programs send the rows of two inputs, Xd [32768, 1024] and Xo [32768, 512], through three dense layers
  (query from Xo; key and value from Xd), view the projections as four heads, scale each head's 1024 values by the
  head's score (the sum over its 128 columns of query times key, with no softmax), and keep, entry by entry, the
  largest of the four heads.  The kernel does this 256 rows at a time over a grid of 128 points, with the weights
  narrowed to bf16 and the maximum taken pairwise; the reference does it for all rows at once, through reshapes, and
  takes the maximum as a reduction from minus infinity.  At the ideal values narrowing changes nothing, a product into
  a zero accumulator and the reference's contraction are the same sum, the row sum from zero is the plain sum, and the
  maximum from minus infinity of four values is their pairwise maximum.  Every output entry depends on one row of the
  two inputs only, so both results are one row function applied row by row: no law of the extended reals beyond
  0 + x = x and max ⊥ x = x is used, and the precondition is never opened.

  The three frames are the generated ones (the reference's is its run with the result dropped); the idealization
  rewrote nothing, so preservation is trivial.
-/
import proofs.«132076_j32753420599330_1_alg».proof.Defs
import proofs.«132076_j32753420599330_1_alg».proof.Proof.Gen.Kernel
import proofs.«132076_j32753420599330_1_alg».proof.Proof.Gen.Kernel.Skeleton
import proofs.«132076_j32753420599330_1_alg».proof.Proof.Gen.Kernel.Launch
import proofs.«132076_j32753420599330_1_alg».proof.Proof.Gen.Kernel.Points
import proofs.«132076_j32753420599330_1_alg».proof.Proof.Gen.Kernel.Frame
import proofs.«132076_j32753420599330_1_alg».proof.Proof.Gen.KernelIdeal
import proofs.«132076_j32753420599330_1_alg».proof.Proof.Gen.KernelIdeal.Skeleton
import proofs.«132076_j32753420599330_1_alg».proof.Proof.Gen.KernelIdeal.Launch
import proofs.«132076_j32753420599330_1_alg».proof.Proof.Gen.KernelIdeal.Points
import proofs.«132076_j32753420599330_1_alg».proof.Proof.Gen.KernelIdeal.Frame
import proofs.«132076_j32753420599330_1_alg».proof.Proof.Gen.ReferenceIdeal
import proofs.«132076_j32753420599330_1_alg».proof.Proof.Gen.Pre_finite_inputs
import proofs.«132076_j32753420599330_1_alg».proof.Proof.Gen.KernelIdeal.Value
import proofs.«132076_j32753420599330_1_alg».proof.Proof.Gen.ReferenceIdeal.Run
import proofs.«132076_j32753420599330_1_alg».proof.Proof.Gen.ReferenceIdeal.Read
import proofs.«132076_j32753420599330_1_alg».proof.Proof.KernelArray
import proofs.«132076_j32753420599330_1_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel's output array ends as the row function applied row by row to the two inputs, and so does the
    reference's result, from memories that agree on the eight arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq]
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
